-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S768x768 : Shape := ⟨2, ![768, 768]⟩
abbrev S768 : Shape := ⟨1, ![768]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768x768 .f32) (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S8x4096x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_v13 main_v16
-- ==== Kernel.lean ====
abbrev S8x4096x768 : Shape := ⟨3, ![8, 4096, 768]⟩
abbrev S768x768 : Shape := ⟨2, ![768, 768]⟩
abbrev S768 : Shape := ⟨1, ![768]⟩
abbrev S32768x768 : Shape := ⟨2, ![32768, 768]⟩
abbrev S2304x768 : Shape := ⟨2, ![2304, 768]⟩
abbrev S768x2304 : Shape := ⟨2, ![768, 2304]⟩
abbrev S2304 : Shape := ⟨1, ![2304]⟩
abbrev S1x2304 : Shape := ⟨2, ![1, 2304]⟩
abbrev S32768x2304 : Shape := ⟨2, ![32768, 2304]⟩
abbrev S512x768 : Shape := ⟨2, ![512, 768]⟩
abbrev S512x2304 : Shape := ⟨2, ![512, 2304]⟩
abbrev S8x4096x2304 : Shape := ⟨3, ![8, 4096, 2304]⟩

abbrev nBuf : Space → Nat
  | .hbm => 19
  | .vmem => 6
  | .smem => 0
  | _ => 0

abbrev bufTy : (tb : Table) → Fin (tcTables nBuf tb) → BufTy
  | .hbm, ⟨0, _⟩ => ⟨S8x4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S32768x768, .f32⟩
  | .hbm, ⟨8, _⟩ => ⟨S32768x768, .bf16⟩
  | .hbm, ⟨9, _⟩ => ⟨S2304x768, .f32⟩
  | .hbm, ⟨10, _⟩ => ⟨S768x2304, .f32⟩
  | .hbm, ⟨11, _⟩ => ⟨S768x2304, .bf16⟩
  | .hbm, ⟨12, _⟩ => ⟨S2304, .f32⟩
  | .hbm, ⟨13, _⟩ => ⟨S1x2304, .f32⟩
  | .hbm, ⟨14, _⟩ => ⟨S32768x2304, .f32⟩
  | .hbm, ⟨15, _⟩ => ⟨S8x4096x2304, .f32⟩
  | .hbm, ⟨16, _⟩ => ⟨S8x4096x768, .f32⟩
  | .hbm, ⟨17, _⟩ => ⟨S8x4096x768, .f32⟩
  | .hbm, ⟨18, _⟩ => ⟨S8x4096x768, .f32⟩
  | .local _ .vmem, ⟨0, _⟩ => ⟨S512x768, .bf16⟩
  | .local _ .vmem, ⟨1, _⟩ => ⟨S512x768, .bf16⟩
  | .local _ .vmem, ⟨2, _⟩ => ⟨S768x2304, .bf16⟩
  | .local _ .vmem, ⟨3, _⟩ => ⟨S1x2304, .f32⟩
  | .local _ .vmem, ⟨4, _⟩ => ⟨S512x2304, .f32⟩
  | .local _ .vmem, ⟨5, _⟩ => ⟨S512x2304, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x4096x768_S32768x768 : S8x4096x768.ShapeCasts S32768x768
  bitsLt_bf16_f32 : FTy.bits .bf16 < FTy.bits .f32
  concatenates_S768x768_S768x768_S768x768_S2304x768_d0 : Shape.Concatenates [S768x768, S768x768, S768x768] S2304x768 0
  transposes_S2304x768_S768x2304_1_0 : S2304x768.Transposes [1, 0] S768x2304
  concatenates_S768_S768_S768_S2304_d0 : Shape.Concatenates [S768, S768, S768] S2304 0
  shapeCasts_S2304_S1x2304 : S2304.ShapeCasts S1x2304
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S512x2304 : S1x2304.Broadcasts S512x2304
  inb_S512x2304_S512x2304_0_0 : ∀ a, (![0, 0] : Fin 2 → Nat) a + S512x2304.size a ≤ S512x2304.size a
  h_S512x2304 : 0 < S512x2304.numel
  shapeCasts_S32768x2304_S8x4096x2304 : S32768x2304.ShapeCasts S8x4096x2304
  slices_S8x4096x2304_S8x4096x768_0_0_0 : S8x4096x2304.Slices ![0, 0, 0] S8x4096x768
  slices_S8x4096x2304_S8x4096x768_0_0_768 : S8x4096x2304.Slices ![0, 0, 768] S8x4096x768
  slices_S8x4096x2304_S8x4096x768_0_0_1536 : S8x4096x2304.Slices ![0, 0, 1536] S8x4096x768
  dot_S512x768_S768x2304_S512x2304_1_0_0_1_n_n_wf : DotDims.WF S512x768 S768x2304 S512x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S32768x768.size a
  hwx0_0 : ∀ i : grid0.Coords, EltTy.bits .bf16 = 32 ∨ (Rect.block (s := S32768x768) S512x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2304.size a ≤ S32768x2304.size a
  hwx0_3 : ∀ i : grid0.Coords, EltTy.bits .f32 = 32 ∨ (Rect.block (s := S32768x2304) S512x2304.size (cc0_transform_3 i) (hinb0_3 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf

abbrev win0_0 : Pipeline.Window sig grid0 :=
  Pipeline.Window.ofSpec (Memref.whole main_v1) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x768 : Shape := ⟨3, ![8, 4096, 768]⟩
abbrev S768x768 : Shape := ⟨2, ![768, 768]⟩
abbrev S768 : Shape := ⟨1, ![768]⟩
abbrev S2304x768 : Shape := ⟨2, ![2304, 768]⟩
abbrev S2304 : Shape := ⟨1, ![2304]⟩
abbrev S8x4096x2304 : Shape := ⟨3, ![8, 4096, 2304]⟩
abbrev S1x1x2304 : Shape := ⟨3, ![1, 1, 2304]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S2304x768, .f32⟩
  | .hbm, ⟨8, _⟩ => ⟨S2304, .f32⟩
  | .hbm, ⟨9, _⟩ => ⟨S8x4096x2304, .f32⟩
  | .hbm, ⟨10, _⟩ => ⟨S1x1x2304, .f32⟩
  | .hbm, ⟨11, _⟩ => ⟨S8x4096x2304, .f32⟩
  | .hbm, ⟨12, _⟩ => ⟨S8x4096x2304, .f32⟩
  | .hbm, ⟨13, _⟩ => ⟨S8x4096x768, .f32⟩
  | .hbm, ⟨14, _⟩ => ⟨S8x4096x768, .f32⟩
  | .hbm, ⟨15, _⟩ => ⟨S8x4096x768, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  concatenates_S768x768_S768x768_S768x768_S2304x768_d0 : Shape.Concatenates [S768x768, S768x768, S768x768] S2304x768 0
  concatenates_S768_S768_S768_S2304_d0 : Shape.Concatenates [S768, S768, S768] S2304 0
  bcast_S2304_S1x1x2304_2 : S2304.BroadcastsInDim S1x1x2304 (![2] : Fin 1 → Fin S1x1x2304.rank)
  bcast_S1x1x2304_S8x4096x2304_0_1_2 : S1x1x2304.BroadcastsInDim S8x4096x2304 (![0, 1, 2] : Fin 3 → Fin S8x4096x2304.rank)
  slices_S8x4096x2304_S8x4096x768_0_0_0 : S8x4096x2304.Slices ![0, 0, 0] S8x4096x768
  slices_S8x4096x2304_S8x4096x768_0_0_768 : S8x4096x2304.Slices ![0, 0, 768] S8x4096x768
  slices_S8x4096x2304_S8x4096x768_0_0_1536 : S8x4096x2304.Slices ![0, 0, 1536] S8x4096x768
  dot_S8x4096x768_S2304x768_S8x4096x2304_2_1_01_0_n_n_wf : DotDims.WF S8x4096x768 S2304x768 S8x4096x2304 [2] [1] [0, 1] [0] [] []

variable [Facts₀]

def dot_S8x4096x768_S2304x768_S8x4096x2304_2_1_01_0_n_n : DotDims S8x4096x768 S2304x768 S8x4096x2304 where
  lhsContracting := [2]
  rhsContracting := [1]
  lhsNonContracting := [0, 1]
  rhsNonContracting := [0]
  lhsBatch := []
  rhsBatch := []
  wf := dot_S8x4096x768_S2304x768_S8x4096x2304_2_1_01_0_n_n_wf

class Facts : Prop extends Facts₀ where

variable [Facts]
-- ==== Proof.RegionBits.lean ====
/-
  The pipelined region of the fused query/key/value projection and @main around it.

  @main is: seven host operations (the token axes flattened and narrowed to bf16; the three weight matrices stacked
  along their rows, transposed and narrowed; the three bias vectors joined and given a unit row axis), ONE region over
  64 row tiles, and four host operations (the token axes restored, the joined output cut into its three thirds).

  At every tile the body reads a 512-row block of the flattened tokens, the whole transposed weight matrix and the
  whole bias row, and overwrites the tile's 512 x 2304 output block with  block · weights + bias  in one store; the
  output block it loads just before is never used.  So the output staging buffer ends at a function of the three
  input blocks alone (`tileOut`), each input buffer holds its block whether or not the tile refetched it, and the
  run of @main leaves every argument array as launched.
-/
import proofs.«166001_j19533511262281_1_alg».proof.Proof.Gen.Kernel.Launch
import proofs.«166001_j19533511262281_1_alg».proof.Proof.Gen.Kernel.Skeleton
import proofs.«166001_j19533511262281_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the seven host operations. -/
abbrev entry₀ (c : Dev nD) : Valuation τ sig (Elt F) := StableHlo.after (List.flatten [hostOps0]) (fun b => m (c, b))
/-- The same, read at a TensorCore reference. -/
abbrev entry (c : Dev nD) (b : Ref sig .tc) : Buf (Elt F) ((c : Thread nD τ).loc b) := entry₀ m c (Proc.devRef .tc b)

/-- No host operation allocates. -/
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- @main is the host prefix, the region, and the host suffix as the region's continuation. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The suffix touches only the pipeline's arrays and buffers the pipeline never stages. -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem suffix_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp suffix_fresh) op hop
/-- It writes none of the four staged arrays (it writes the restored output and its three thirds). -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.unary_writes, StableHlo.reshape_writes, Finset.mem_singleton] <;> exact StableHlo.devRef_ne_of_ne (by decide)

/-- An argument array is written by no host operation before the region: the region finds it as launched. -/
theorem entry_of_arg (a : Ref sig .tc)
    (ha : a ≠ main_v0 ∧ a ≠ main_v1 ∧ a ≠ main_v2 ∧ a ≠ main_v3 ∧ a ≠ main_v4 ∧ a ≠ main_v5 ∧ a ≠ main_v6) (c : Dev nD) :
    entry m c a = m ((c : Thread nD τ).loc a) :=
  StableHlo.after_of_forall_not_mem (b := Proc.devRef .tc a) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    obtain ⟨h0, h1, h2, h3, h4, h5, h6⟩ := ha
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-- And by none after it, and it is no staged array: it ends as launched. -/
theorem exit_of_arg (dats : (p : Fin _) → (c : Dev nD) → Dat τ (Elt F) Unit ℕ (UR sig nD τ) ℕ (cfgs p) c) (a : Ref sig .tc)
    (ha : a ≠ main_v0 ∧ a ≠ main_v1 ∧ a ≠ main_v2 ∧ a ≠ main_v3 ∧ a ≠ main_v4 ∧ a ≠ main_v5 ∧ a ≠ main_v6)
    (hb : a ≠ main_v8 ∧ a ≠ main_v9 ∧ a ≠ main_v10 ∧ a ≠ main_v11) (hw : ∀ w, Pipeline.arrRef spec0 w ≠ a) (c : Dev nD) :
    Pipeline.afterTail₀ cfgs dats 0 (entry₀ m) [hostOps1] c a = m ((c : Thread nD τ).loc a) := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall, StableHlo.unary_writes, StableHlo.reshape_writes, Finset.mem_singleton]
      obtain ⟨h0, h1, h2, h3⟩ := hb
      exact ⟨StableHlo.devRef_ne_of_ne h0, StableHlo.devRef_ne_of_ne h1, StableHlo.devRef_ne_of_ne h2, StableHlo.devRef_ne_of_ne h3⟩)),
    Pipeline.withArrays_of_ne _ c (entry₀ m c) _ a hw]
  exact entry_of_arg m a ha c

/-! ## The windows' blocks -/

/-- Window `w`'s block at tile `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The token window's buffer holds its block at every tile. -/
theorem found0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The weight window is fetched once; its buffer still holds the (one) block at every later tile. -/
theorem found1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- The same for the bias row. -/
theorem found2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the run's -/

/-- A run to the library's post, read at the seven argument arrays (none is staged, none is written after the region),
    is the frame claim's post. -/
theorem frame_of_run (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry₀ m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (exit_of_arg m dats main_arg0 (by decide) (by decide) (by decide) c),
     ((h c).2 main_arg1 (Pipeline.mem_restRefs_of main_arg1 (by decide) (by decide))).trans (exit_of_arg m dats main_arg1 (by decide) (by decide) (by decide) c),
     ((h c).2 main_arg2 (Pipeline.mem_restRefs_of main_arg2 (by decide) (by decide))).trans (exit_of_arg m dats main_arg2 (by decide) (by decide) (by decide) c),
     ((h c).2 main_arg3 (Pipeline.mem_restRefs_of main_arg3 (by decide) (by decide))).trans (exit_of_arg m dats main_arg3 (by decide) (by decide) (by decide) c),
     ((h c).2 main_arg4 (Pipeline.mem_restRefs_of main_arg4 (by decide) (by decide))).trans (exit_of_arg m dats main_arg4 (by decide) (by decide) (by decide) c),
     ((h c).2 main_arg5 (Pipeline.mem_restRefs_of main_arg5 (by decide) (by decide))).trans (exit_of_arg m dats main_arg5 (by decide) (by decide) (by decide) c),
     ((h c).2 main_arg6 (Pipeline.mem_restRefs_of main_arg6 (by decide) (by decide))).trans (exit_of_arg m dats main_arg6 (by decide) (by decide) (by decide) c)⟩) h

/-! ## What the body leaves in the output block -/

abbrev tokRect : Rect S512x768 := Rect.unit (s := S512x768) ![0, 0] S512x768.size inb_S512x768_S512x768_0_0
abbrev wgtRect : Rect S768x2304 := Rect.unit (s := S768x2304) ![0, 0] S768x2304.size inb_S768x2304_S768x2304_0_0
abbrev biasRect : Rect S1x2304 := Rect.unit (s := S1x2304) ![0, 0] S1x2304.size inb_S1x2304_S1x2304_0_0
abbrev outRect : Rect S512x2304 := Rect.unit (s := S512x2304) ![0, 0] S512x2304.size inb_S512x2304_S512x2304_0_0

/-- The output staging buffer after the body: its one store, over the whole block, of the payload of the three
    loaded input blocks. -/
def tileOut (x0 : Vec F S512x768 .bf16) (x1 : Vec F S768x2304 .bf16) (x2 : Vec F S1x2304 .f32) : Vec F S512x2304 .f32 :=
  View.canon [⟨outRect, k0_pay1 (View.ld x0 tokRect) (View.ld x1 wgtRect) (View.ld x2 biasRect)⟩]

/-- The one store covers the block. -/
theorem tileOut_cover (p0 : Vec F S512x2304 .f32) (y : S512x2304.Idx) :
    ∃ pc ∈ ([⟨outRect, p0⟩] : List (View.Piece (Elt F) S512x2304 .f32)), y ∈ pc.1.set :=
  View.cover_of_tiled [⟨outRect, p0⟩] S512x2304.size (by rfl) y

/-! ## The body's triple -/

set_option maxHeartbeats 1000000 in
/-- On whole staging memrefs, the inputs' read at `x0`, `x1`, `x2` and the output's at anything, the body runs to
    the continuation with the inputs as they were and the output at `tileOut x0 x1 x2`. -/
theorem body_triple (c : Dev nD) (E : Set ℕ) (i : grid0.Coords)
    (arg1 : Memref sig .tc .vmem S512x768 .bf16) (harg1 : arg1.IsWhole) (arg2 : Memref sig .tc .vmem S768x2304 .bf16) (harg2 : arg2.IsWhole)
    (arg3 : Memref sig .tc .vmem S1x2304 .f32) (harg3 : arg3.IsWhole) (arg4 : Memref sig .tc .vmem S512x2304 .f32) (harg4 : arg4.IsWhole)
    (x0 : Vec F S512x768 .bf16) (x1 : Vec F S768x2304 .bf16) (x2 : Vec F S1x2304 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tileOut x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tileOut_cover _)

/-! ## The pipeline's proof data -/

/-- The arrays as the region finds them; after the body at tile `t` each input buffer at its block and the output
    buffer at `tileOut` of the three; the untouched scoped rest as invariant; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => tileOut (blockAt m c 0 t) (blockAt m c 1 t) (blockAt m c 2 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) :
    (dats m 0 c).after 3 t = tileOut (blockAt m c 0 t) (blockAt m c 1 t) (blockAt m c 2 t) := by dsimp only [dats]

theorem found_0 (c : Dev nD) (t : Fin cfg0.N) (d) : (dats m 0 c).before 0 t d = blockAt m c 0 t :=
  found0_of m (dats m 0 c) (A_eq m c 0) (after_0 m c) t d
theorem found_1 (c : Dev nD) (t : Fin cfg0.N) (d) : (dats m 0 c).before 1 t d = blockAt m c 1 t :=
  found1_of m (dats m 0 c) (A_eq m c 1) (after_1 m c) t d
theorem found_2 (c : Dev nD) (t : Fin cfg0.N) (d) : (dats m 0 c).before 2 t d = blockAt m c 2 t :=
  found2_of m (dats m 0 c) (A_eq m c 2) (after_2 m c) t d

/-! ## The body obligation -/

/-- What the body is called with at tile `t`, -/
def tilePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def tilePost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem tile_sound (c : Dev nD) (t : Fin cfg0.N) :
    tilePre m c t ⊢ wp frame (wpE (defs₀ (F := F)) Variants.none c none) Set.univ (bodyAt0 t) (fun _ => tilePost m c t) := by
  unfold tilePre tilePost bodyAt0
  simp only [found_0, found_1, found_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact tile_sound m c t

/-! ## The run and the frame -/

set_option backward.isDefEq.respectTransparency.types false in
/-- Every weakly fair execution of @main terminates; the output array ends at what the 64 write-backs leave, every
    other unscoped buffer as the host suffix leaves it. -/
theorem run_main : θ_run defs (onTc (τ := τ) (main (F := F))) (s₀ m ρ) (Pipeline.FramePost cfgs (dats m) 0 (Pipeline.afterTail₀ cfgs (dats m) 0 (entry₀ m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry₀ m) (opss := [hostOps1]) (hsub := suffix_sub) (hfresh := suffix_fresh') (hkeep := suffix_keeps)
    (hmain := main_around m Variants.none) (hA := A_eq m) (hΦ := fun _ _ => rfl)

/-- The frame: @main runs to the end and leaves its seven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_run m ρ (dats m) (run_main m ρ)

end Cert.Kernel.Region

end
-- ==== Proof.RegionIdeal.lean ====
/-
  The pipelined region of the fused query/key/value projection and @main around it.

  @main is: seven host operations (the token axes flattened and narrowed to bf16; the three weight matrices stacked
  along their rows, transposed and narrowed; the three bias vectors joined and given a unit row axis), ONE region over
  64 row tiles, and four host operations (the token axes restored, the joined output cut into its three thirds).

  At every tile the body reads a 512-row block of the flattened tokens, the whole transposed weight matrix and the
  whole bias row, and overwrites the tile's 512 x 2304 output block with  block · weights + bias  in one store; the
  output block it loads just before is never used.  So the output staging buffer ends at a function of the three
  input blocks alone (`tileOut`), each input buffer holds its block whether or not the tile refetched it, and the
  run of @main leaves every argument array as launched.
-/
import proofs.«166001_j19533511262281_1_alg».proof.Proof.Gen.KernelIdeal.Launch
import proofs.«166001_j19533511262281_1_alg».proof.Proof.Gen.KernelIdeal.Skeleton
import proofs.«166001_j19533511262281_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the seven host operations. -/
abbrev entry₀ (c : Dev nD) : Valuation τ sig (Elt F) := StableHlo.after (List.flatten [hostOps0]) (fun b => m (c, b))
/-- The same, read at a TensorCore reference. -/
abbrev entry (c : Dev nD) (b : Ref sig .tc) : Buf (Elt F) ((c : Thread nD τ).loc b) := entry₀ m c (Proc.devRef .tc b)

/-- No host operation allocates. -/
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- @main is the host prefix, the region, and the host suffix as the region's continuation. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The suffix touches only the pipeline's arrays and buffers the pipeline never stages. -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem suffix_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp suffix_fresh) op hop
/-- It writes none of the four staged arrays (it writes the restored output and its three thirds). -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.unary_writes, StableHlo.reshape_writes, Finset.mem_singleton] <;> exact StableHlo.devRef_ne_of_ne (by decide)

/-- An argument array is written by no host operation before the region: the region finds it as launched. -/
theorem entry_of_arg (a : Ref sig .tc)
    (ha : a ≠ main_v0 ∧ a ≠ main_v1 ∧ a ≠ main_v2 ∧ a ≠ main_v3 ∧ a ≠ main_v4 ∧ a ≠ main_v5 ∧ a ≠ main_v6) (c : Dev nD) :
    entry m c a = m ((c : Thread nD τ).loc a) :=
  StableHlo.after_of_forall_not_mem (b := Proc.devRef .tc a) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    obtain ⟨h0, h1, h2, h3, h4, h5, h6⟩ := ha
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-- And by none after it, and it is no staged array: it ends as launched. -/
theorem exit_of_arg (dats : (p : Fin _) → (c : Dev nD) → Dat τ (Elt F) Unit ℕ (UR sig nD τ) ℕ (cfgs p) c) (a : Ref sig .tc)
    (ha : a ≠ main_v0 ∧ a ≠ main_v1 ∧ a ≠ main_v2 ∧ a ≠ main_v3 ∧ a ≠ main_v4 ∧ a ≠ main_v5 ∧ a ≠ main_v6)
    (hb : a ≠ main_v8 ∧ a ≠ main_v9 ∧ a ≠ main_v10 ∧ a ≠ main_v11) (hw : ∀ w, Pipeline.arrRef spec0 w ≠ a) (c : Dev nD) :
    Pipeline.afterTail₀ cfgs dats 0 (entry₀ m) [hostOps1] c a = m ((c : Thread nD τ).loc a) := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall, StableHlo.unary_writes, StableHlo.reshape_writes, Finset.mem_singleton]
      obtain ⟨h0, h1, h2, h3⟩ := hb
      exact ⟨StableHlo.devRef_ne_of_ne h0, StableHlo.devRef_ne_of_ne h1, StableHlo.devRef_ne_of_ne h2, StableHlo.devRef_ne_of_ne h3⟩)),
    Pipeline.withArrays_of_ne _ c (entry₀ m c) _ a hw]
  exact entry_of_arg m a ha c

/-! ## The windows' blocks -/

/-- Window `w`'s block at tile `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The token window's buffer holds its block at every tile. -/
theorem found0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The weight window is fetched once; its buffer still holds the (one) block at every later tile. -/
theorem found1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- The same for the bias row. -/
theorem found2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the run's -/

/-- A run to the library's post, read at the seven argument arrays (none is staged, none is written after the region),
    is the frame claim's post. -/
theorem frame_of_run (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry₀ m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (exit_of_arg m dats main_arg0 (by decide) (by decide) (by decide) c),
     ((h c).2 main_arg1 (Pipeline.mem_restRefs_of main_arg1 (by decide) (by decide))).trans (exit_of_arg m dats main_arg1 (by decide) (by decide) (by decide) c),
     ((h c).2 main_arg2 (Pipeline.mem_restRefs_of main_arg2 (by decide) (by decide))).trans (exit_of_arg m dats main_arg2 (by decide) (by decide) (by decide) c),
     ((h c).2 main_arg3 (Pipeline.mem_restRefs_of main_arg3 (by decide) (by decide))).trans (exit_of_arg m dats main_arg3 (by decide) (by decide) (by decide) c),
     ((h c).2 main_arg4 (Pipeline.mem_restRefs_of main_arg4 (by decide) (by decide))).trans (exit_of_arg m dats main_arg4 (by decide) (by decide) (by decide) c),
     ((h c).2 main_arg5 (Pipeline.mem_restRefs_of main_arg5 (by decide) (by decide))).trans (exit_of_arg m dats main_arg5 (by decide) (by decide) (by decide) c),
     ((h c).2 main_arg6 (Pipeline.mem_restRefs_of main_arg6 (by decide) (by decide))).trans (exit_of_arg m dats main_arg6 (by decide) (by decide) (by decide) c)⟩) h

/-! ## What the body leaves in the output block -/

abbrev tokRect : Rect S512x768 := Rect.unit (s := S512x768) ![0, 0] S512x768.size inb_S512x768_S512x768_0_0
abbrev wgtRect : Rect S768x2304 := Rect.unit (s := S768x2304) ![0, 0] S768x2304.size inb_S768x2304_S768x2304_0_0
abbrev biasRect : Rect S1x2304 := Rect.unit (s := S1x2304) ![0, 0] S1x2304.size inb_S1x2304_S1x2304_0_0
abbrev outRect : Rect S512x2304 := Rect.unit (s := S512x2304) ![0, 0] S512x2304.size inb_S512x2304_S512x2304_0_0

/-- The output staging buffer after the body: its one store, over the whole block, of the payload of the three
    loaded input blocks. -/
def tileOut (x0 : Vec F S512x768 .bf16) (x1 : Vec F S768x2304 .bf16) (x2 : Vec F S1x2304 .f32) : Vec F S512x2304 .f32 :=
  View.canon [⟨outRect, k0_pay1 (View.ld x0 tokRect) (View.ld x1 wgtRect) (View.ld x2 biasRect)⟩]

/-- The one store covers the block. -/
theorem tileOut_cover (p0 : Vec F S512x2304 .f32) (y : S512x2304.Idx) :
    ∃ pc ∈ ([⟨outRect, p0⟩] : List (View.Piece (Elt F) S512x2304 .f32)), y ∈ pc.1.set :=
  View.cover_of_tiled [⟨outRect, p0⟩] S512x2304.size (by rfl) y

/-! ## The body's triple -/

set_option maxHeartbeats 1000000 in
/-- On whole staging memrefs, the inputs' read at `x0`, `x1`, `x2` and the output's at anything, the body runs to
    the continuation with the inputs as they were and the output at `tileOut x0 x1 x2`. -/
theorem body_triple (c : Dev nD) (E : Set ℕ) (i : grid0.Coords)
    (arg1 : Memref sig .tc .vmem S512x768 .bf16) (harg1 : arg1.IsWhole) (arg2 : Memref sig .tc .vmem S768x2304 .bf16) (harg2 : arg2.IsWhole)
    (arg3 : Memref sig .tc .vmem S1x2304 .f32) (harg3 : arg3.IsWhole) (arg4 : Memref sig .tc .vmem S512x2304 .f32) (harg4 : arg4.IsWhole)
    (x0 : Vec F S512x768 .bf16) (x1 : Vec F S768x2304 .bf16) (x2 : Vec F S1x2304 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tileOut x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tileOut_cover _)

/-! ## The pipeline's proof data -/

/-- The arrays as the region finds them; after the body at tile `t` each input buffer at its block and the output
    buffer at `tileOut` of the three; the untouched scoped rest as invariant; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => tileOut (blockAt m c 0 t) (blockAt m c 1 t) (blockAt m c 2 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) :
    (dats m 0 c).after 3 t = tileOut (blockAt m c 0 t) (blockAt m c 1 t) (blockAt m c 2 t) := by dsimp only [dats]

theorem found_0 (c : Dev nD) (t : Fin cfg0.N) (d) : (dats m 0 c).before 0 t d = blockAt m c 0 t :=
  found0_of m (dats m 0 c) (A_eq m c 0) (after_0 m c) t d
theorem found_1 (c : Dev nD) (t : Fin cfg0.N) (d) : (dats m 0 c).before 1 t d = blockAt m c 1 t :=
  found1_of m (dats m 0 c) (A_eq m c 1) (after_1 m c) t d
theorem found_2 (c : Dev nD) (t : Fin cfg0.N) (d) : (dats m 0 c).before 2 t d = blockAt m c 2 t :=
  found2_of m (dats m 0 c) (A_eq m c 2) (after_2 m c) t d

/-! ## The body obligation -/

/-- What the body is called with at tile `t`, -/
def tilePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def tilePost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem tile_sound (c : Dev nD) (t : Fin cfg0.N) :
    tilePre m c t ⊢ wp frame (wpE (defs₀ (F := F)) Variants.none c none) Set.univ (bodyAt0 t) (fun _ => tilePost m c t) := by
  unfold tilePre tilePost bodyAt0
  simp only [found_0, found_1, found_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact tile_sound m c t

/-! ## The run and the frame -/

set_option backward.isDefEq.respectTransparency.types false in
/-- Every weakly fair execution of @main terminates; the output array ends at what the 64 write-backs leave, every
    other unscoped buffer as the host suffix leaves it. -/
theorem run_main : θ_run defs (onTc (τ := τ) (main (F := F))) (s₀ m ρ) (Pipeline.FramePost cfgs (dats m) 0 (Pipeline.afterTail₀ cfgs (dats m) 0 (entry₀ m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry₀ m) (opss := [hostOps1]) (hsub := suffix_sub) (hfresh := suffix_fresh') (hkeep := suffix_keeps)
    (hmain := main_around m Variants.none) (hA := A_eq m) (hΦ := fun _ _ => rfl)

/-- The frame: @main runs to the end and leaves its seven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_run m ρ (dats m) (run_main m ρ)

end Cert.KernelIdeal.Region

end
-- ==== Proof.Projection.lean ====
/-
  The fused projection as one function of its arrays, in the two arrangements the two programs compute it in.

  `proj x W b` is the reference's arrangement: tokens indexed (batch, position), the three weight matrices stacked along
  their OUTPUT axis into `W : [2304, 768]`, the three biases joined into `b : [2304]`, and
      proj x W b (p, q, o) = (∑ k, x (p, q, k) · W (o, k)) + b o.
  `projFlat X Wt B` is the kernel's: the tokens flattened to 32768 rows, the stacked weights transposed to
  `Wt : [768, 2304]`, the bias a 1 × 2304 row, and
      projFlat X Wt B (r, o) = (∑ k, X (r, k) · Wt (k, o)) + B (0, o).
  Row `r = p · 4096 + q` of the flattened tokens is token (p, q); when the flat operands are those re-layings of the
  reference's, the two agree entry by entry — the same products summed over the same `k`, the same bias added; no law
  of arithmetic is used, only the re-indexing.
-/
import Idealize.ShloMosaic.PureOps.Ideal
import Idealize.ShloMosaic.Lib.ValueIdx

noncomputable section

namespace Cert.Fused

open Idealize.ShloMosaic Idealize.ShloMosaic.ValueIdx

abbrev Tok : Shape := ⟨3, ![8, 4096, 768]⟩
abbrev Wst : Shape := ⟨2, ![2304, 768]⟩
abbrev Bjo : Shape := ⟨1, ![2304]⟩
abbrev Out3 : Shape := ⟨3, ![8, 4096, 2304]⟩
abbrev TokF : Shape := ⟨2, ![32768, 768]⟩
abbrev WstT : Shape := ⟨2, ![768, 2304]⟩
abbrev Brow : Shape := ⟨2, ![1, 2304]⟩
abbrev OutF : Shape := ⟨2, ![32768, 2304]⟩

/-- The flattened row of token (p, q). -/
def rowOf (p : Fin 8) (q : Fin 4096) : Fin 32768 := ⟨p.val * 4096 + q.val, by have := p.isLt; have := q.isLt; omega⟩

theorem rowOf_val (p : Fin 8) (q : Fin 4096) : (rowOf p q).val = p.val * 4096 + q.val := rfl

/-- The reference's arrangement at coordinates (p, q, o). -/
def projAt (x : Tok.Idx → EReal) (W : Wst.Idx → EReal) (b : Bjo.Idx → EReal) (p : Fin 8) (q : Fin 4096) (o : Fin 2304) : EReal :=
  (∑ k : Fin 768, x (ix3 p q k) * W (ix2 o k)) + b (ix1 o)

/-- The reference's arrangement as an array. -/
def proj (x : Tok.Idx → EReal) (W : Wst.Idx → EReal) (b : Bjo.Idx → EReal) : Out3.Idx → EReal :=
  fun i => projAt x W b (i 0) (i 1) (i 2)

/-- The kernel's arrangement at coordinates (r, o). -/
def projFlatAt (X : TokF.Idx → EReal) (Wt : WstT.Idx → EReal) (B : Brow.Idx → EReal) (r : Fin 32768) (o : Fin 2304) : EReal :=
  (∑ k : Fin 768, X (ix2 r k) * Wt (ix2 k o)) + B (ix2 (0 : Fin 1) o)

/-- The kernel's arrangement as an array. -/
def projFlat (X : TokF.Idx → EReal) (Wt : WstT.Idx → EReal) (B : Brow.Idx → EReal) : OutF.Idx → EReal :=
  fun j => projFlatAt X Wt B (j 0) (j 1)

/-- Entry (p · 4096 + q, o) of the flat arrangement is entry (p, q, o) of the reference's, when the flat operands are the
    reference's re-laid. -/
theorem projFlatAt_row (x : Tok.Idx → EReal) (W : Wst.Idx → EReal) (b : Bjo.Idx → EReal)
    (X : TokF.Idx → EReal) (Wt : WstT.Idx → EReal) (B : Brow.Idx → EReal)
    (hX : ∀ (p : Fin 8) (q : Fin 4096) (k : Fin 768), X (ix2 (rowOf p q) k) = x (ix3 p q k))
    (hW : ∀ (k : Fin 768) (o : Fin 2304), Wt (ix2 k o) = W (ix2 o k))
    (hB : ∀ o : Fin 2304, B (ix2 (0 : Fin 1) o) = b (ix1 o)) (p : Fin 8) (q : Fin 4096) (o : Fin 2304) :
    projFlatAt X Wt B (rowOf p q) o = projAt x W b p q o := by
  unfold projFlatAt projAt
  rw [hB]
  exact congrArg (· + b (ix1 o)) (Finset.sum_congr rfl fun k _ => by rw [hX, hW])

end Cert.Fused

end
-- ==== Proof.TileValue.lean ====
/-
  What one tile of the region writes, entry by entry, on the extended reals.

  The body's one store holds  matmul(block of tokens, weights, 0) + bias row broadcast over the 512 rows.  At the ideal
  instance the matrix unit's product into a zero accumulator is the plain sum over the 768 contracted positions, the
  shape casts in the body are identities, and the broadcast reads the bias row at the entry's column: entry (r, o) of
  the tile is  (∑ k, tokens (r, k) · weights (k, o)) + bias (0, o).
-/
import proofs.«166001_j19533511262281_1_alg».proof.Proof.RegionIdeal
import proofs.«166001_j19533511262281_1_alg».proof.Proof.Projection
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Cert.KernelIdeal.Region Cert.Fused
open Idealize.ShloMosaic Idealize.ShloMosaic.TcCoe Idealize.ShloMosaic.ValueIdx Idealize.SL.Sem

theorem zeros2 : (![0, 0] : Fin 2 → Nat) = fun _ => 0 := funext fun a => by fin_cases a <;> rfl

/-! ## The matrix product's operand indices -/

theorem lhs_row (j : S512x2304.Idx) (q : dot_S512x768_S768x2304_S512x2304_1_0_0_1_n_n.contr.Idx) :
    (dot_S512x768_S768x2304_S512x2304_1_0_0_1_n_n.lhsIdx j q 0).val = (j 0).val := by
  unfold DotDims.lhsIdx
  rw [dif_neg (show ¬(0 : Fin S512x768.rank) ∈ dot_S512x768_S768x2304_S512x2304_1_0_0_1_n_n.lhsBatch by decide), dif_pos (show (0 : Fin S512x768.rank) ∈ dot_S512x768_S768x2304_S512x2304_1_0_0_1_n_n.lhsNonContracting by decide)]
  rfl
theorem lhs_contr (j : S512x2304.Idx) (q : dot_S512x768_S768x2304_S512x2304_1_0_0_1_n_n.contr.Idx) :
    (dot_S512x768_S768x2304_S512x2304_1_0_0_1_n_n.lhsIdx j q 1).val = (q ⟨0, by decide⟩).val :=
  dot_S512x768_S768x2304_S512x2304_1_0_0_1_n_n.lhsIdx_val_of_single rfl j q
theorem rhs_contr (j : S512x2304.Idx) (q : dot_S512x768_S768x2304_S512x2304_1_0_0_1_n_n.contr.Idx) :
    (dot_S512x768_S768x2304_S512x2304_1_0_0_1_n_n.rhsIdx j q 0).val = (q ⟨0, by decide⟩).val :=
  dot_S512x768_S768x2304_S512x2304_1_0_0_1_n_n.rhsIdx_val_of_single rfl j q
theorem rhs_col (j : S512x2304.Idx) (q : dot_S512x768_S768x2304_S512x2304_1_0_0_1_n_n.contr.Idx) :
    (dot_S512x768_S768x2304_S512x2304_1_0_0_1_n_n.rhsIdx j q 1).val = (j 1).val := by
  unfold DotDims.rhsIdx
  rw [dif_neg (show ¬(1 : Fin S768x2304.rank) ∈ dot_S512x768_S768x2304_S512x2304_1_0_0_1_n_n.rhsBatch by decide), dif_pos (show (1 : Fin S768x2304.rank) ∈ dot_S512x768_S768x2304_S512x2304_1_0_0_1_n_n.rhsNonContracting by decide)]
  rfl

/-- The product into a zero accumulator, at entry (r, o): the sum over the contracted position. -/
theorem matmul_at (a : FVec Ideal S512x768 .bf16) (w : FVec Ideal S768x2304 .bf16) (r : Fin 512) (o : Fin 2304) :
    matmul dot_S512x768_S768x2304_S512x2304_1_0_0_1_n_n none a w (constant (F := Ideal) S512x2304 .f32 0x00000000#32) (ix2 r o)
      = ∑ k : Fin 768, a (ix2 r k) * w (ix2 k o) := by
  simp only [matmul]
  rw [Ideal.matmul_constant_zero_apply, ← Equiv.sum_comp (ValueIdx.contrEquiv1 dot_S512x768_S768x2304_S512x2304_1_0_0_1_n_n 768 rfl rfl).symm]
  refine Finset.sum_congr rfl fun k _ => ?_
  have hk := ValueIdx.contrEquiv1_symm_val dot_S512x768_S768x2304_S512x2304_1_0_0_1_n_n 768 rfl rfl k
  have el : dot_S512x768_S768x2304_S512x2304_1_0_0_1_n_n.lhsIdx (ix2 r o) ((ValueIdx.contrEquiv1 dot_S512x768_S768x2304_S512x2304_1_0_0_1_n_n 768 rfl rfl).symm k) = ix2 r k := funext fun a => Fin.ext (by
    match a with
    | ⟨0, _⟩ => exact lhs_row _ _
    | ⟨1, _⟩ => exact (lhs_contr _ _).trans hk)
  have er : dot_S512x768_S768x2304_S512x2304_1_0_0_1_n_n.rhsIdx (ix2 r o) ((ValueIdx.contrEquiv1 dot_S512x768_S768x2304_S512x2304_1_0_0_1_n_n 768 rfl rfl).symm k) = ix2 k o := funext fun a => Fin.ext (by
    match a with
    | ⟨0, _⟩ => exact (rhs_contr _ _).trans hk
    | ⟨1, _⟩ => exact rhs_col _ _)
  rw [el, er]

/-- The bias row broadcast over the rows, at entry (r, o): the row's entry in column o. -/
theorem bias_at (v : FVec Ideal S1x2304 .f32) (r : Fin 512) (o : Fin 2304) :
    broadcastTo S512x2304 v broadcasts_S1x2304_S512x2304 (ix2 r o) = v (ix2 (0 : Fin 1) o) :=
  broadcastTo_apply v broadcasts_S1x2304_S512x2304 (ix2 r o) (ix2 (0 : Fin 1) o) (fun a => match a with
    | ⟨0, _⟩ => by show 0 = if (1 : Nat) = 1 then 0 else _; rw [if_pos rfl]
    | ⟨1, _⟩ => by show o.val = if (2304 : Nat) = 1 then 0 else o.val; rw [if_neg (by decide)])

/-- The tile's output block, entry by entry. -/
theorem tileOut_at (x0 : Vec Ideal S512x768 .bf16) (x1 : Vec Ideal S768x2304 .bf16) (x2 : Vec Ideal S1x2304 .f32) (r : Fin 512) (o : Fin 2304) :
    tileOut (F := Ideal) x0 x1 x2 (ix2 r o) = (∑ k : Fin 768, x0 (ix2 r k) * x1 (ix2 k o)) + x2 (ix2 (0 : Fin 1) o) := by
  unfold tileOut
  rw [View.canon_unit_zero zeros2]
  simp only [View.ld_unit_zero (S := S512x768) zeros2, View.ld_unit_zero (S := S768x2304) zeros2, View.ld_unit_zero (S := S1x2304) zeros2]
  unfold k0_pay1
  show matmul dot_S512x768_S768x2304_S512x2304_1_0_0_1_n_n none (shapeCast S512x768 x0 _) (shapeCast S768x2304 x1 _) (constant (F := Ideal) S512x2304 .f32 0x00000000#32) (ix2 r o)
      + broadcastTo S512x2304 (shapeCast S1x2304 x2 _) broadcasts_S1x2304_S512x2304 (ix2 r o) = _
  rw [shapeCast_self, shapeCast_self, shapeCast_self, matmul_at, bias_at]

end Cert.KernelIdeal.Tile

end
-- ==== Proof.ArrayValue.lean ====
/-
  The output array after the 64 tiles, as one function of the three staged operands.

  Tile `t` reads rows  t · 512 … t · 512 + 511  of the flattened tokens, the whole weight matrix and the whole bias row,
  and writes back rows  t · 512 … t · 512 + 511  of the output; the 64 row bands tile the 32768 rows.  So what tile `t`
  writes back is band `t` of `projFlat` of the three staged arrays, every output entry lies in the band of
  `t = row / 512`, and the array ends at `projFlat` whole.
-/
import proofs.«166001_j19533511262281_1_alg».proof.Proof.TileValue

noncomputable section

namespace Cert.KernelIdeal.Whole

open Cert.KernelIdeal Cert.KernelIdeal.Gen Cert.KernelIdeal.Region Cert.KernelIdeal.Tile Cert.Fused
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The three staged operands as the region finds them, at their literal types. -/
abbrev tokF (c : Dev nD) : Vec Ideal S32768x768 .bf16 := entry m c main_v1
abbrev wgtT (c : Dev nD) : Vec Ideal S768x2304 .bf16 := entry m c main_v4
abbrev biasR (c : Dev nD) : Vec Ideal S1x2304 .f32 := entry m c main_v6

/-- The printed index maps over the 64 tiles: the token and output windows move one block of rows per tile, the weight
    and bias windows stay. -/
theorem tile_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of tile `t`. -/
def tileRow (t : Fin cfg0.N) (r : Fin 512) : Fin 32768 :=
  ⟨t.val * 512 + r.val, by have h : t.val < grid0.N := t.isLt; rw [N_0] at h; have := r.isLt; omega⟩

/-- The token block at tile `t` is the band of rows `t · 512 + r`. -/
theorem tok_block (c : Dev nD) (t : Fin cfg0.N) (r : Fin 512) (k : Fin 768) :
    blockAt m c 0 t (ix2 r k) = tokF m c (ix2 (tileRow t r) k) := by
  show entry m c main_v1 (((cfg0.win 0).blk t).view.emb (ix2 r k)) = entry m c main_v1 (ix2 (tileRow t r) k)
  refine congrArg _ (funext fun a => Fin.ext ?_)
  obtain ⟨e0, e1, e2, e3, e4, e5, e6, e7⟩ := tile_idx t
  match a with
  | ⟨0, _⟩ => show win0_0.index t (0 : Fin 2) * 512 + 1 * r.val = t.val * 512 + r.val; omega
  | ⟨1, _⟩ => show win0_0.index t (1 : Fin 2) * 768 + 1 * k.val = k.val; omega

/-- The weight block is the whole matrix at every tile. -/
theorem wgt_block (c : Dev nD) (t : Fin cfg0.N) (k : Fin 768) (o : Fin 2304) :
    blockAt m c 1 t (ix2 k o) = wgtT m c (ix2 k o) := by
  show entry m c main_v4 (((cfg0.win 1).blk t).view.emb (ix2 k o)) = entry m c main_v4 (ix2 k o)
  refine congrArg _ (funext fun a => Fin.ext ?_)
  obtain ⟨e0, e1, e2, e3, e4, e5, e6, e7⟩ := tile_idx t
  match a with
  | ⟨0, _⟩ => show win0_1.index t (0 : Fin 2) * 768 + 1 * k.val = k.val; omega
  | ⟨1, _⟩ => show win0_1.index t (1 : Fin 2) * 2304 + 1 * o.val = o.val; omega

/-- The bias block is the whole row at every tile. -/
theorem bias_block (c : Dev nD) (t : Fin cfg0.N) (o : Fin 2304) :
    blockAt m c 2 t (ix2 (0 : Fin 1) o) = biasR m c (ix2 (0 : Fin 1) o) := by
  show entry m c main_v6 (((cfg0.win 2).blk t).view.emb (ix2 (0 : Fin 1) o)) = entry m c main_v6 (ix2 (0 : Fin 1) o)
  refine congrArg _ (funext fun a => Fin.ext ?_)
  obtain ⟨e0, e1, e2, e3, e4, e5, e6, e7⟩ := tile_idx t
  match a with
  | ⟨0, _⟩ => show win0_2.index t (0 : Fin 2) * 1 + 1 * 0 = 0; omega
  | ⟨1, _⟩ => show win0_2.index t (1 : Fin 2) * 2304 + 1 * o.val = o.val; omega

/-- Entry (r, o) of the output block at tile `t` is entry (t · 512 + r, o) of the output array. -/
theorem out_block (t : Fin cfg0.N) (r : Fin 512) (o : Fin 2304) :
    ((cfg0.win 3).blk t).view.emb (ix2 r o) = ix2 (tileRow t r) o := by
  refine funext fun a => Fin.ext ?_
  obtain ⟨e0, e1, e2, e3, e4, e5, e6, e7⟩ := tile_idx t
  match a with
  | ⟨0, _⟩ => show win0_3.index t (0 : Fin 2) * 512 + 1 * r.val = t.val * 512 + r.val; omega
  | ⟨1, _⟩ => show win0_3.index t (1 : Fin 2) * 2304 + 1 * o.val = o.val; omega

/-- What tile `t` writes back is band `t` of the flat projection of the staged operands. -/
theorem flushed_eq (c : Dev nD) (t : Fin cfg0.N) :
    (dats m 0 c).flushed 3 t = ((cfg0.win 3).blk t).view.read (Elt Ideal) (projFlat (tokF m c) (wgtT m c) (biasR m c)) := by
  show (cfg0.win 3).cut (grid0.coords t) ((dats m 0 c).after 3 t) = _
  rw [after_3]
  funext j
  obtain ⟨r, o, rfl⟩ : ∃ (r : Fin 512) (o : Fin 2304), j = ix2 r o := ⟨j 0, j 1, eq_ix2 j⟩
  show tileOut (F := Ideal) (blockAt m c 0 t) (blockAt m c 1 t) (blockAt m c 2 t) (ix2 r o)
    = projFlat (tokF m c) (wgtT m c) (biasR m c) (((cfg0.win 3).blk t).view.emb (ix2 r o))
  rw [out_block]
  refine (tileOut_at (blockAt m c 0 t) (blockAt m c 1 t) (blockAt m c 2 t) r o).trans ?_
  show _ = (∑ k : Fin 768, tokF m c (ix2 (tileRow t r) k) * wgtT m c (ix2 k o)) + biasR m c (ix2 (0 : Fin 1) o)
  rw [bias_block]
  exact congrArg (· + biasR m c (ix2 (0 : Fin 1) o)) (Finset.sum_congr rfl fun k _ => by rw [tok_block, wgt_block])

/-- An entry of the output array is in tile `t`'s band iff each coordinate is in the band's range. -/
theorem mem_band (t : Fin cfg0.N) (i : S32768x2304.Idx) :
    i ∈ ((cfg0.win 3).blk t).view.set ↔ ∀ a : Fin 2, win0_3.index t a * S512x2304.size a ≤ (i a).val ∧ (i a).val < win0_3.index t a * S512x2304.size a + S512x2304.size a := by
  show i ∈ ((View.whole main_v7).slice (win0_3.rect t)).set ↔ _
  rw [View.set_slice_whole, Rect.mem_set_unit]
  exact Iff.rfl

/-- Every entry is in the band of tile  row / 512, and every tile writes back. -/
theorem covered (i : S32768x2304.Idx) :
    ∃ t : Fin cfg0.N, (cfg0.win 3).flush t = true ∧ i ∈ ((cfg0.win 3).blk t).view.set := by
  have h0 : (i 0).val < 32768 := (i 0).isLt
  have h1 : (i 1).val < 2304 := (i 1).isLt
  have ht : (i 0).val / 512 < cfg0.N := by show _ < grid0.N; rw [N_0]; omega
  refine ⟨⟨(i 0).val / 512, ht⟩, flush0_3 _, ?_⟩
  rw [mem_band]
  obtain ⟨e0, e1, e2, e3, e4, e5, e6, e7⟩ := tile_idx ⟨(i 0).val / 512, ht⟩
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e6]; show (i 0).val / 512 * 512 ≤ (i 0).val ∧ (i 0).val < (i 0).val / 512 * 512 + 512; omega
  | ⟨1, _⟩ =>
    show win0_3.index ⟨(i 0).val / 512, ht⟩ (1 : Fin 2) * 2304 ≤ (i 1).val ∧ (i 1).val < win0_3.index ⟨(i 0).val / 512, ht⟩ (1 : Fin 2) * 2304 + 2304
    rw [e7]; omega

/-- The output array after the region. -/
theorem final (c : Dev nD) :
    (dats m 0 c).arrAt 3 cfg0.N = projFlat (tokF m c) (wgtT m c) (biasR m c) :=
  (dats m 0 c).arrAt_eq_of_cover 3 _ (fun t _ => flushed_eq m c t) covered

end Cert.KernelIdeal.Whole

end
-- ==== Proof.HostSides.lean ====
/-
  The host operations around the region, read on the extended reals, and the kernel's three results.

  Before the region: the flattened, narrowed tokens are the tokens re-indexed (row p · 4096 + q is token (p, q);
  narrowing is the identity on the extended reals); the staged weights are the stacked weights transposed; the staged
  bias row is the joined bias with a unit row axis.  With these the output array, which the region leaves at
  `projFlat` of the staged operands, restored to (batch, position, output) is `proj` of the tokens, the stacked
  weights and the joined bias.  After the region each result is one third of that restored array along the output axis.
-/
import proofs.«166001_j19533511262281_1_alg».proof.Proof.ArrayValue
import Idealize.ShloMosaic.Lib.StableHlo.Run

noncomputable section

namespace Cert.KernelIdeal.Around

open Cert.KernelIdeal Cert.KernelIdeal.Gen Cert.KernelIdeal.Region Cert.KernelIdeal.Whole Cert.Fused
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-- The three weight matrices stacked along their rows, and the three bias vectors joined, as the program spells them. -/
abbrev stackW (c : Dev nD) : Vec Ideal S2304x768 .f32 :=
  concatenate S2304x768 0 [⟨S768x768, m ((c : Thread nD τ).loc main_arg1)⟩, ⟨S768x768, m ((c : Thread nD τ).loc main_arg3)⟩, ⟨S768x768, m ((c : Thread nD τ).loc main_arg5)⟩] concatenates_S768x768_S768x768_S768x768_S2304x768_d0
abbrev joinB (c : Dev nD) : Vec Ideal S2304 .f32 :=
  concatenate S2304 0 [⟨S768, m ((c : Thread nD τ).loc main_arg2)⟩, ⟨S768, m ((c : Thread nD τ).loc main_arg4)⟩, ⟨S768, m ((c : Thread nD τ).loc main_arg6)⟩] concatenates_S768_S768_S768_S2304_d0

/-! ## The staged operands from the arguments -/

theorem tokF_eq (c : Dev nD) :
    tokF m c = (shapeCast S32768x768 (m ((c : Thread nD τ).loc main_arg0)) shapeCasts_S8x4096x768_S32768x768 : S32768x768.Idx → EReal) := by
  show StableHlo.after hostOps0 (fun b => m (c, b)) (Proc.devRef .tc main_v1) = _
  after_results
  rfl

theorem wgtT_eq (c : Dev nD) :
    wgtT m c = (transpose S768x2304 [1, 0] (stackW m c) transposes_S2304x768_S768x2304_1_0 : S768x2304.Idx → EReal) := by
  show StableHlo.after hostOps0 (fun b => m (c, b)) (Proc.devRef .tc main_v4) = _
  after_results
  rfl

theorem biasR_eq (c : Dev nD) :
    biasR m c = shapeCast S1x2304 (joinB m c) shapeCasts_S2304_S1x2304 := by
  show StableHlo.after hostOps0 (fun b => m (c, b)) (Proc.devRef .tc main_v6) = _
  after_results
  rfl

/-- Row p · 4096 + q of the staged tokens is token (p, q). -/
theorem tok_at (c : Dev nD) (p : Fin 8) (q : Fin 4096) (k : Fin 768) :
    tokF m c (ix2 (rowOf p q) k) = m ((c : Thread nD τ).loc main_arg0) (ix3 p q k) := by
  rw [tokF_eq]
  refine shapeCast_apply _ _ (ix2 (rowOf p q) k) (ix3 p q k) ?_
  rw [Shape.rowMajor_val_three, Shape.rowMajor_val_two]
  show (p.val * 4096 + q.val) * 768 + k.val = (rowOf p q).val * 768 + k.val
  rw [rowOf_val]

/-- The staged weights are the stacked weights transposed. -/
theorem wgt_at (c : Dev nD) (k : Fin 768) (o : Fin 2304) :
    wgtT m c (ix2 k o) = stackW m c (ix2 o k) := by
  rw [wgtT_eq]
  exact transpose_apply [1, 0] _ _ (ix2 k o) (ix2 o k) (fun b => match b with
    | ⟨0, _⟩ => rfl
    | ⟨1, _⟩ => rfl)

/-- The staged bias row is the joined bias. -/
theorem bias_at (c : Dev nD) (o : Fin 2304) :
    biasR m c (ix2 (0 : Fin 1) o) = joinB m c (ix1 o) := by
  rw [biasR_eq]
  refine shapeCast_apply _ _ (ix2 (0 : Fin 1) o) (ix1 o) ?_
  rw [Shape.rowMajor_val_one, Shape.rowMajor_val_two]
  show o.val = 0 * 2304 + o.val
  omega

/-! ## The output array, restored -/

/-- The region's output array with the token axes restored is the projection of the arguments. -/
theorem restored_eq (c : Dev nD) :
    shapeCast S8x4096x2304 (projFlat (tokF m c) (wgtT m c) (biasR m c)) shapeCasts_S32768x2304_S8x4096x2304
      = proj (m ((c : Thread nD τ).loc main_arg0)) (stackW m c) (joinB m c) := by
  funext i
  refine (shapeCast_apply _ _ i (ix2 (rowOf (i 0) (i 1)) (i 2)) ?_).trans
    (projFlatAt_row _ _ _ _ _ _ (tok_at m c) (wgt_at m c) (bias_at m c) (i 0) (i 1) (i 2))
  rw [Shape.rowMajor_val_three, Shape.rowMajor_val_two]
  rfl

/-- Result `main_v9`: the third of the restored output at output offset 0. -/
theorem result_main_v9 (c : Dev nD) :
    Pipeline.afterTail₀ cfgs (dats m) 0 (entry₀ m) [hostOps1] c main_v9
      = extractStridedSlice S8x4096x768 ![0, 0, 0] (proj (m ((c : Thread nD τ).loc main_arg0)) (stackW m c) (joinB m c)) slices_S8x4096x2304_S8x4096x768_0_0_0 := by
  unfold Pipeline.afterTail₀
  show StableHlo.after hostOps1 _ (Proc.devRef .tc main_v9) = _
  after_results
  have e : Pipeline.withArrays (cfgs 0).spec c (entry₀ m c) (fun w => (dats m 0 c).arrAt w (cfgs 0).N) (Proc.devRef .tc main_v7)
      = projFlat (tokF m c) (wgtT m c) (biasR m c) :=
    (Pipeline.withArrays_arr spec0 launch0.win.arr_inj c _ _ 3).trans (final m c)
  rw [e]
  show extractStridedSlice S8x4096x768 ![0, 0, 0] (shapeCast S8x4096x2304 (projFlat (tokF m c) (wgtT m c) (biasR m c)) shapeCasts_S32768x2304_S8x4096x2304) slices_S8x4096x2304_S8x4096x768_0_0_0 = _
  rw [restored_eq]

/-- Result `main_v10`: the third of the restored output at output offset 768. -/
theorem result_main_v10 (c : Dev nD) :
    Pipeline.afterTail₀ cfgs (dats m) 0 (entry₀ m) [hostOps1] c main_v10
      = extractStridedSlice S8x4096x768 ![0, 0, 768] (proj (m ((c : Thread nD τ).loc main_arg0)) (stackW m c) (joinB m c)) slices_S8x4096x2304_S8x4096x768_0_0_768 := by
  unfold Pipeline.afterTail₀
  show StableHlo.after hostOps1 _ (Proc.devRef .tc main_v10) = _
  after_results
  have e : Pipeline.withArrays (cfgs 0).spec c (entry₀ m c) (fun w => (dats m 0 c).arrAt w (cfgs 0).N) (Proc.devRef .tc main_v7)
      = projFlat (tokF m c) (wgtT m c) (biasR m c) :=
    (Pipeline.withArrays_arr spec0 launch0.win.arr_inj c _ _ 3).trans (final m c)
  rw [e]
  show extractStridedSlice S8x4096x768 ![0, 0, 768] (shapeCast S8x4096x2304 (projFlat (tokF m c) (wgtT m c) (biasR m c)) shapeCasts_S32768x2304_S8x4096x2304) slices_S8x4096x2304_S8x4096x768_0_0_768 = _
  rw [restored_eq]

/-- Result `main_v11`: the third of the restored output at output offset 1536. -/
theorem result_main_v11 (c : Dev nD) :
    Pipeline.afterTail₀ cfgs (dats m) 0 (entry₀ m) [hostOps1] c main_v11
      = extractStridedSlice S8x4096x768 ![0, 0, 1536] (proj (m ((c : Thread nD τ).loc main_arg0)) (stackW m c) (joinB m c)) slices_S8x4096x2304_S8x4096x768_0_0_1536 := by
  unfold Pipeline.afterTail₀
  show StableHlo.after hostOps1 _ (Proc.devRef .tc main_v11) = _
  after_results
  have e : Pipeline.withArrays (cfgs 0).spec c (entry₀ m c) (fun w => (dats m 0 c).arrAt w (cfgs 0).N) (Proc.devRef .tc main_v7)
      = projFlat (tokF m c) (wgtT m c) (biasR m c) :=
    (Pipeline.withArrays_arr spec0 launch0.win.arr_inj c _ _ 3).trans (final m c)
  rw [e]
  show extractStridedSlice S8x4096x768 ![0, 0, 1536] (shapeCast S8x4096x2304 (projFlat (tokF m c) (wgtT m c) (biasR m c)) shapeCasts_S32768x2304_S8x4096x2304) slices_S8x4096x2304_S8x4096x768_0_0_1536 = _
  rw [restored_eq]

/-! ## The kernel's run, read -/

/-- Every weakly fair execution of the idealized kernel's @main terminates with each result at its third of the
    projection of the arguments, the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v9) = extractStridedSlice S8x4096x768 ![0, 0, 0] (proj (m ((c : Thread nD τ).loc main_arg0)) (stackW m c) (joinB m c)) slices_S8x4096x2304_S8x4096x768_0_0_0
      ∧ r.2.mem ((c.tc : Thread nD τ).loc main_v10) = extractStridedSlice S8x4096x768 ![0, 0, 768] (proj (m ((c : Thread nD τ).loc main_arg0)) (stackW m c) (joinB m c)) slices_S8x4096x2304_S8x4096x768_0_0_768
      ∧ r.2.mem ((c.tc : Thread nD τ).loc main_v11) = extractStridedSlice S8x4096x768 ![0, 0, 1536] (proj (m ((c : Thread nD τ).loc main_arg0)) (stackW m c) (joinB m c)) slices_S8x4096x2304_S8x4096x768_0_0_1536
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v9 (Pipeline.mem_restRefs_of main_v9 (by decide) (by decide))).trans (result_main_v9 m c),
     ((h c).2 main_v10 (Pipeline.mem_restRefs_of main_v10 (by decide) (by decide))).trans (result_main_v10 m c),
     ((h c).2 main_v11 (Pipeline.mem_restRefs_of main_v11 (by decide) (by decide))).trans (result_main_v11 m c),
     ((h c).2 main_arg0 (Pipeline.mem_restRefs_of main_arg0 (by decide) (by decide))).trans (exit_of_arg m (dats m) main_arg0 (by decide) (by decide) (by decide) c),
     ((h c).2 main_arg1 (Pipeline.mem_restRefs_of main_arg1 (by decide) (by decide))).trans (exit_of_arg m (dats m) main_arg1 (by decide) (by decide) (by decide) c),
     ((h c).2 main_arg2 (Pipeline.mem_restRefs_of main_arg2 (by decide) (by decide))).trans (exit_of_arg m (dats m) main_arg2 (by decide) (by decide) (by decide) c),
     ((h c).2 main_arg3 (Pipeline.mem_restRefs_of main_arg3 (by decide) (by decide))).trans (exit_of_arg m (dats m) main_arg3 (by decide) (by decide) (by decide) c),
     ((h c).2 main_arg4 (Pipeline.mem_restRefs_of main_arg4 (by decide) (by decide))).trans (exit_of_arg m (dats m) main_arg4 (by decide) (by decide) (by decide) c),
     ((h c).2 main_arg5 (Pipeline.mem_restRefs_of main_arg5 (by decide) (by decide))).trans (exit_of_arg m (dats m) main_arg5 (by decide) (by decide) (by decide) c),
     ((h c).2 main_arg6 (Pipeline.mem_restRefs_of main_arg6 (by decide) (by decide))).trans (exit_of_arg m (dats m) main_arg6 (by decide) (by decide) (by decide) c)⟩)
    (run_main m ρ)

end Cert.KernelIdeal.Around

end
-- ==== Proof.RefSide.lean ====
/-
  The reference's joined output, read entry by entry.

  Before it cuts the output into thirds the reference holds  dot_general(tokens, stacked weights) + stacked bias broadcast
  over batch and position.  At the ideal instance the contraction is the plain sum over the 768 hidden positions and the
  two broadcasts read the bias at the entry's output coordinate, so the joined array is `proj` of the tokens, the stacked
  weights and the joined bias — the stacking itself is kept as an unopened term, the same on the kernel's side.
-/
import proofs.«166001_j19533511262281_1_alg».proof.Defs
import proofs.«166001_j19533511262281_1_alg».proof.Proof.Gen.ReferenceIdeal.Run
import proofs.«166001_j19533511262281_1_alg».proof.Proof.Gen.ReferenceIdeal.Read
import proofs.«166001_j19533511262281_1_alg».proof.Proof.Projection

noncomputable section

namespace Cert.ReferenceIdeal.Joined

open Cert.ReferenceIdeal Cert.ReferenceIdeal.Gen Cert.ReferenceIdeal.Read Cert.Fused
open Idealize.ShloMosaic Idealize.ShloMosaic.TcCoe Idealize.ShloMosaic.ValueIdx Idealize.SL.Sem

/-- The reference's joined array is the projection of the tokens, the stacked weights and the joined bias. -/
theorem joined_eq (x0 : (⟨S8x4096x768, .f32⟩ : BufTy).Contents (Elt Ideal))
    (x1 : (⟨S768x768, .f32⟩ : BufTy).Contents (Elt Ideal)) (x2 : (⟨S768, .f32⟩ : BufTy).Contents (Elt Ideal))
    (x3 : (⟨S768x768, .f32⟩ : BufTy).Contents (Elt Ideal)) (x4 : (⟨S768, .f32⟩ : BufTy).Contents (Elt Ideal))
    (x5 : (⟨S768x768, .f32⟩ : BufTy).Contents (Elt Ideal)) (x6 : (⟨S768, .f32⟩ : BufTy).Contents (Elt Ideal)) :
    val_main_v5 (F := Ideal) x0 x1 x2 x3 x4 x5 x6
      = proj x0 (val_main_v0 (F := Ideal) x1 x3 x5) (val_main_v1 (F := Ideal) x2 x4 x6) := by
  funext i
  rw [val_main_v5_apply, val_main_v2_apply, val_main_v4_apply, val_main_v3_apply]
  have el : ∀ k : Fin 768, lidx_main_v2 i k = ix3 (i 0) (i 1) k := fun k => funext fun a => Fin.ext (by
    match a with | ⟨0, _⟩ => rfl | ⟨1, _⟩ => rfl | ⟨2, _⟩ => rfl)
  have er : ∀ k : Fin 768, ridx_main_v2 i k = ix2 (i 2) k := fun k => funext fun a => Fin.ext (by
    match a with | ⟨0, _⟩ => rfl | ⟨1, _⟩ => rfl)
  have eb : idx_main_v3 (idx_main_v4 i) = ix1 (i 2) := funext fun a => Fin.ext (by
    match a with | ⟨0, _⟩ => rfl)
  simp only [el, er, eb]
  rfl

end Cert.ReferenceIdeal.Joined

end
-- ==== Proof.lean ====
/-
  The fused query/key/value projection: the kernel and its idealization run to the end and keep their arguments, the
  reference does, and on the extended reals the idealized kernel and the reference return the same three arrays.

  Both compute, for token (p, q) and output coordinate o over the stacked weights W and the joined bias b,
      (∑ k, x (p, q, k) · W (o, k)) + b o,
  and cut the result into thirds along o.  The kernel reaches it through a flattened, transposed, tiled arrangement
  (64 tiles of 512 rows, one matrix product into a zero accumulator per tile, a bias row broadcast over the rows);
  narrowing the operands to bf16 is the identity on the extended reals, and the tile products are the same sums over
  the 768 hidden positions, so the two results agree entry by entry with no law of arithmetic beyond re-indexing
  (the precondition is not used).  The stackings of the weights and biases are the same unopened terms on both sides.
-/
import proofs.«166001_j19533511262281_1_alg».proof.Defs
import proofs.«166001_j19533511262281_1_alg».proof.Proof.Gen.Kernel
import proofs.«166001_j19533511262281_1_alg».proof.Proof.Gen.KernelIdeal
import proofs.«166001_j19533511262281_1_alg».proof.Proof.Gen.ReferenceIdeal
import proofs.«166001_j19533511262281_1_alg».proof.Proof.Gen.Pre_finite_inputs
import proofs.«166001_j19533511262281_1_alg».proof.Proof.RegionBits
import proofs.«166001_j19533511262281_1_alg».proof.Proof.HostSides
import proofs.«166001_j19533511262281_1_alg».proof.Proof.RefSide

noncomputable section

namespace Cert.Proof

open Idealize.ShloMosaic Idealize.ShloMosaic.TcCoe Idealize.SL.Sem

theorem frame_k : Cert.frame_Kernel := fun m ρ _ => Cert.Kernel.Region.frame m ρ

theorem frame_ki : Cert.frame_KernelIdeal := fun m ρ _ => Cert.KernelIdeal.Region.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- The reference's third at an output offset is the same third of the projection, once its arguments are the kernel's. -/
theorem algebraic : Cert.algebraic_KernelIdeal_ReferenceIdeal := by
  intro m ρ m' ρ' _ hagree
  refine ⟨_, _, _, Cert.KernelIdeal.Around.kernel_run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v6_eq]
    unfold Cert.ReferenceIdeal.Read.val_main_v6
    rw [Cert.ReferenceIdeal.Joined.joined_eq, (hagree c).1, (hagree c).2.1, (hagree c).2.2.1, (hagree c).2.2.2.1, (hagree c).2.2.2.2.1,
      (hagree c).2.2.2.2.2.1, (hagree c).2.2.2.2.2.2]
    rfl
  · rw [Cert.ReferenceIdeal.Read.val_main_v7_eq]
    unfold Cert.ReferenceIdeal.Read.val_main_v7
    rw [Cert.ReferenceIdeal.Joined.joined_eq, (hagree c).1, (hagree c).2.1, (hagree c).2.2.1, (hagree c).2.2.2.1, (hagree c).2.2.2.2.1,
      (hagree c).2.2.2.2.2.1, (hagree c).2.2.2.2.2.2]
    rfl
  · rw [Cert.ReferenceIdeal.Read.val_main_v8_eq]
    unfold Cert.ReferenceIdeal.Read.val_main_v8
    rw [Cert.ReferenceIdeal.Joined.joined_eq, (hagree c).1, (hagree c).2.1, (hagree c).2.2.1, (hagree c).2.2.2.1, (hagree c).2.2.2.2.1,
      (hagree c).2.2.2.2.2.1, (hagree c).2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
